-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x64 : Shape := ⟨4, ![4, 16, 2048, 64]⟩
abbrev S_ : Shape := ⟨0, ![]⟩

class Facts : Prop where
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  h_S_ : 0 < S_.numel

variable [Facts]

def fn {F : FTy → Type} [FloatOps F] (main_arg0 : FVec F S4x16x2048x64 .f32) (main_arg1 : FVec F S4x16x2048x64 .f32) (main_arg2 : FVec F S4x16x2048x64 .f32) : IVec S_ 1 :=
  let main_v0 : FVec F S4x16x2048x64 .f32 := Host.absf main_arg0
  let main_cst : FVec F S_ .f32 := constant S_ .f32 0x7F800000#32
  let main_v1 : FVec F S4x16x2048x64 .f32 := broadcastInDim S4x16x2048x64 ![] bcast_S_S4x16x2048x64 main_cst
  let main_v2 : IVec S4x16x2048x64 1 := cmpf .olt main_v0 main_v1
  let main_c : IVec S_ 1 := constantI S_ 1 1#1
  let main_v3 : IVec S_ 1 := (fun x v => Host.reduce IntOp.andi x v reducesTo_S4x16x2048x64_S_d0_1_2_3 h_S_) main_v2 main_c
  let main_v4 : FVec F S4x16x2048x64 .f32 := Host.absf main_arg1
  let main_cst_0 : FVec F S_ .f32 := constant S_ .f32 0x7F800000#32
  let main_v5 : FVec F S4x16x2048x64 .f32 := broadcastInDim S4x16x2048x64 ![] bcast_S_S4x16x2048x64 main_cst_0
  let main_v6 : IVec S4x16x2048x64 1 := cmpf .olt main_v4 main_v5
  let main_c_1 : IVec S_ 1 := constantI S_ 1 1#1
  let main_v7 : IVec S_ 1 := (fun x v => Host.reduce IntOp.andi x v reducesTo_S4x16x2048x64_S_d0_1_2_3 h_S_) main_v6 main_c_1
  let main_v8 : IVec S_ 1 := andi main_v3 main_v7
  let main_v9 : FVec F S4x16x2048x64 .f32 := Host.absf main_arg2
  let main_cst_2 : FVec F S_ .f32 := constant S_ .f32 0x7F800000#32
  let main_v10 : FVec F S4x16x2048x64 .f32 := broadcastInDim S4x16x2048x64 ![] bcast_S_S4x16x2048x64 main_cst_2
  let main_v11 : IVec S4x16x2048x64 1 := cmpf .olt main_v9 main_v10
  let main_c_3 : IVec S_ 1 := constantI S_ 1 1#1
  let main_v12 : IVec S_ 1 := (fun x v => Host.reduce IntOp.andi x v reducesTo_S4x16x2048x64_S_d0_1_2_3 h_S_) main_v11 main_c_3
  let main_v13 : IVec S_ 1 := andi main_v8 main_v12
  main_v13
-- ==== Kernel.lean ====
abbrev S4x16x2048x64 : Shape := ⟨4, ![4, 16, 2048, 64]⟩
abbrev S64x2048x64 : Shape := ⟨3, ![64, 2048, 64]⟩
abbrev S1x2048x64 : Shape := ⟨3, ![1, 2048, 64]⟩
abbrev S2048x64 : Shape := ⟨2, ![2048, 64]⟩
abbrev S512x64 : Shape := ⟨2, ![512, 64]⟩
abbrev S64x512 : Shape := ⟨2, ![64, 512]⟩
abbrev S512x512 : Shape := ⟨2, ![512, 512]⟩
abbrev S1x512x64 : Shape := ⟨3, ![1, 512, 64]⟩

abbrev nBuf : Space → Nat
  | .hbm => 8
  | .vmem => 8
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S64x2048x64, .f32⟩
  | .hbm, ⟨4, _⟩ => ⟨S64x2048x64, .f32⟩
  | .hbm, ⟨5, _⟩ => ⟨S64x2048x64, .f32⟩
  | .hbm, ⟨6, _⟩ => ⟨S64x2048x64, .f32⟩
  | .hbm, ⟨7, _⟩ => ⟨S4x16x2048x64, .f32⟩
  | .local _ .vmem, ⟨0, _⟩ => ⟨S1x2048x64, .f32⟩
  | .local _ .vmem, ⟨1, _⟩ => ⟨S1x2048x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x2048x64, .f32⟩
  | .local _ .vmem, ⟨7, _⟩ => ⟨S1x2048x64, .f32⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x16x2048x64_S64x2048x64 : S4x16x2048x64.ShapeCasts S64x2048x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  slices_S2048x64_o0_0_S512x64 : S2048x64.Slices ![0, 0] S512x64
  bitsLt_bf16_f32 : FTy.bits .bf16 < FTy.bits .f32
  transposes_S512x64_p1_0_S64x512 : S512x64.Transposes [1, 0] S64x512
  iota_S512x512_d0_w32 : S512x512.Iotas .tc 32 [0]
  iota_S512x512_d1_w32 : S512x512.Iotas .tc 32 [1]
  inb_S1x2048x64_S1x512x64_0_0_0 : ∀ a, (![0, 0, 0] : Fin 3 → Nat) a + S1x512x64.size a ≤ S1x2048x64.size a
  h_S1x512x64 : 0 < S1x512x64.numel
  shapeCasts_S1x512x64_S512x64 : S1x512x64.ShapeCasts S512x64
  shapeCasts_S512x64_S1x512x64 : S512x64.ShapeCasts S1x512x64
  slices_S2048x64_o512_0_S512x64 : S2048x64.Slices ![512, 0] S512x64
  inb_S1x2048x64_S1x512x64_0_512_0 : ∀ a, (![0, 512, 0] : Fin 3 → Nat) a + S1x512x64.size a ≤ S1x2048x64.size a
  slices_S2048x64_o1024_0_S512x64 : S2048x64.Slices ![1024, 0] S512x64
  inb_S1x2048x64_S1x512x64_0_1024_0 : ∀ a, (![0, 1024, 0] : Fin 3 → Nat) a + S1x512x64.size a ≤ S1x2048x64.size a
  slices_S2048x64_o1536_0_S512x64 : S2048x64.Slices ![1536, 0] S512x64
  inb_S1x2048x64_S1x512x64_0_1536_0 : ∀ a, (![0, 1536, 0] : Fin 3 → Nat) a + S1x512x64.size a ≤ S1x2048x64.size a
  shapeCasts_S64x2048x64_S4x16x2048x64 : S64x2048x64.ShapeCasts S4x16x2048x64
  dot_S512x64_S64x512_S512x512_1_0_0_1_n_n_wf : DotDims.WF S512x64 S64x512 S512x512 [1] [0] [0] [1] [] []
  dot_S512x512_S512x64_S512x64_1_0_0_1_n_n_wf : DotDims.WF S512x512 S512x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x64.size a ≤ S64x2048x64.size a
  hwx0_0 : ∀ i : grid0.Coords, EltTy.bits .f32 = 32 ∨ (Rect.block (s := S64x2048x64) S1x2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S64x2048x64.size a
  hwx0_1 : ∀ i : grid0.Coords, EltTy.bits .f32 = 32 ∨ (Rect.block (s := S64x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S64x2048x64.size a
  hwx0_2 : ∀ i : grid0.Coords, EltTy.bits .f32 = 32 ∨ (Rect.block (s := S64x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x64.size a ≤ S64x2048x64.size a
  hwx0_3 : ∀ i : grid0.Coords, EltTy.bits .f32 = 32 ∨ (Rect.block (s := S64x2048x64) S1x2048x64.size (cc0_transform_3 i) (hinb0_3 i)).WholeWords (EltTy.packing .f32)

variable [Facts₀]

def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf

abbrev win0_0 : Pipeline.Window sig grid0 :=
  Pipeline.Window.ofSpec (Memref.whole main_v0) S1x2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x2048x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x16x2048x64 : Shape := ⟨4, ![4, 16, 2048, 64]⟩
abbrev S4x16x2048x2048 : Shape := ⟨4, ![4, 16, 2048, 2048]⟩
abbrev S_ : Shape := ⟨0, ![]⟩
abbrev S2048x2048 : Shape := ⟨2, ![2048, 2048]⟩
abbrev S1x1x2048x2048 : Shape := ⟨4, ![1, 1, 2048, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x16x2048x2048, .f32⟩
  | .hbm, ⟨4, _⟩ => ⟨S_, .f32⟩
  | .hbm, ⟨5, _⟩ => ⟨S2048x2048, .f32⟩
  | .hbm, ⟨6, _⟩ => ⟨S2048x2048, .i32⟩
  | .hbm, ⟨7, _⟩ => ⟨S_, .i32⟩
  | .hbm, ⟨8, _⟩ => ⟨S2048x2048, .i32⟩
  | .hbm, ⟨9, _⟩ => ⟨S2048x2048, .i32⟩
  | .hbm, ⟨10, _⟩ => ⟨S2048x2048, .i32⟩
  | .hbm, ⟨11, _⟩ => ⟨S2048x2048, .i1⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S1x1x2048x2048, .f32⟩
  | .hbm, ⟨16, _⟩ => ⟨S4x16x2048x2048, .f32⟩
  | .hbm, ⟨17, _⟩ => ⟨S4x16x2048x2048, .f32⟩
  | .hbm, ⟨18, _⟩ => ⟨S4x16x2048x64, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_cst : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  bcast_S2048x2048_S1x1x2048x2048_2_3 : S2048x2048.BroadcastsInDim S1x1x2048x2048 (![2, 3] : Fin 2 → Fin S1x1x2048x2048.rank)
  bcast_S1x1x2048x2048_S4x16x2048x2048_0_1_2_3 : S1x1x2048x2048.BroadcastsInDim S4x16x2048x2048 (![0, 1, 2, 3] : Fin 4 → Fin S4x16x2048x2048.rank)
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.Spec.lean ====
/-
  Causal linear attention, as one function of the argument arrays.

  For one head, with queries, keys and values `Q K V : Fin 2048 → Fin 64 → EReal`, row `t` of the result is
      out t d = ∑ s, ((∑ e, Q t e * K s e) * [s ≤ t]) * V s d,
  the score of query `t` against key `s`, kept when the key is not in the query's future and replaced by zero
  otherwise, then contracted with the values. `[s ≤ t]` is the number one or zero. The whole arrays hold 4 × 16
  independent heads.

  The same row read in four blocks of 512 keys: with `t = 512 * qi + r`, the blocks before `qi` are kept whole
  (`offBlock`), block `qi` is kept up to the diagonal (`diagBlock`), and the later blocks contribute nothing.
-/
import Idealize.ShloMosaic.PureOps.Ideal
import Idealize.ShloMosaic.Lib.ValueIdx

noncomputable section

namespace Cert.CausalAttn

open Idealize.ShloMosaic Idealize.ShloMosaic.ValueIdx

/-- The shape of each argument and of the result: batch, head, position, feature. -/
abbrev SArg : Shape := ⟨4, ![4, 16, 2048, 64]⟩

/-- The score of query row `t` against key row `s`. -/
def score (Q K : Fin 2048 → Fin 64 → EReal) (t s : Fin 2048) : EReal := ∑ e : Fin 64, Q t e * K s e

/-- One head: row `t`, feature `d` of `tril (Q Kᵀ) V`, the mask a factor one or zero on the score. -/
def headAttn (Q K V : Fin 2048 → Fin 64 → EReal) (t : Fin 2048) (d : Fin 64) : EReal :=
  ∑ s : Fin 2048, (score Q K t s * (if s.val ≤ t.val then (1 : EReal) else 0)) * V s d

/-- The whole arrays: entry `(b, h, t, d)` is head `(b, h)`'s row `t`, feature `d`. -/
def attn (q k v : SArg.Idx → EReal) (i : SArg.Idx) : EReal :=
  headAttn (fun t e => q (ix4 (⟨(i 0).val, (i 0).isLt⟩ : Fin 4) (⟨(i 1).val, (i 1).isLt⟩ : Fin 16) t e))
    (fun s e => k (ix4 (⟨(i 0).val, (i 0).isLt⟩ : Fin 4) (⟨(i 1).val, (i 1).isLt⟩ : Fin 16) s e))
    (fun s d => v (ix4 (⟨(i 0).val, (i 0).isLt⟩ : Fin 4) (⟨(i 1).val, (i 1).isLt⟩ : Fin 16) s d))
    (⟨(i 2).val, (i 2).isLt⟩ : Fin 2048) (⟨(i 3).val, (i 3).isLt⟩ : Fin 64)

theorem attn_ix4 (q k v : SArg.Idx → EReal) (b : Fin 4) (h : Fin 16) (t : Fin 2048) (d : Fin 64) :
    attn q k v (ix4 b h t d)
      = headAttn (fun t e => q (ix4 b h t e)) (fun s e => k (ix4 b h s e)) (fun s d => v (ix4 b h s d)) t d := rfl

/-- Row `c` of block `j` among the 2048 positions. -/
def row (j : Fin 4) (c : Fin 512) : Fin 2048 := ⟨512 * j.val + c.val, by omega⟩

theorem row_val (j : Fin 4) (c : Fin 512) : (row j c).val = 512 * j.val + c.val := rfl

/-- Query block `qi` against an earlier key block `kv`: every key is in the past, the scores are kept whole. -/
def offBlock (Q K V : Fin 2048 → Fin 64 → EReal) (qi kv : Fin 4) (r : Fin 512) (d : Fin 64) : EReal :=
  ∑ c : Fin 512, score Q K (row qi r) (row kv c) * V (row kv c) d

/-- Query block `qi` against its own key block: the scores are kept on and below the diagonal. -/
def diagBlock (Q K V : Fin 2048 → Fin 64 → EReal) (qi : Fin 4) (r : Fin 512) (d : Fin 64) : EReal :=
  ∑ c : Fin 512, (if c.val ≤ r.val then score Q K (row qi r) (row qi c) else 0) * V (row qi c) d

end Cert.CausalAttn

end
-- ==== Proof.RefIsSpec.lean ====
/-
  The reference computes causal linear attention: its last stage, read one operation at a time, is `attn` of the
  three arguments. The scores are the first contraction, over the 64 features; the mask `tril` is one where the key's
  position does not exceed the query's and zero elsewhere (a signed comparison of two position counters, both below
  2048, so the comparison is the comparison of the positions); the masked scores are contracted with the values
  over the 2048 keys.
-/
import proofs.«176356_j28656021799604_1_alg».proof.Proof.Spec
import proofs.«176356_j28656021799604_1_alg».proof.Proof.Gen.ReferenceIdeal.Read
import Idealize.ShloMosaic.Lib.IdealHost
import Idealize.ShloMosaic.Lib.StableHlo.Predicate

noncomputable section

namespace Cert.ReferenceIdeal.RefValue

open Idealize.ShloMosaic Idealize.ShloMosaic.ValueIdx Cert.ReferenceIdeal Cert.ReferenceIdeal.Read Cert.CausalAttn

/-- A position counter below 2048 is its own word value. -/
theorem toNat_pos (p : Fin 2048) : (BitVec.ofNat 32 p.val).toNat = p.val := by
  have hp := p.isLt
  rw [BitVec.toNat_ofNat]
  exact Nat.mod_eq_of_lt (by omega)

/-- The mask at row `t`, column `s`: one when the key `s` is not after the query `t`, zero otherwise. The row counter
plus the literal zero is compared, signed, with the column counter; both are below 2048, far below 2³¹, so the signed
comparison of the words is the comparison of the positions. -/
theorem mask_apply (t s : Fin 2048) :
    val_main_v2 (F := Ideal) (ix2 t s) = if s.val ≤ t.val then (1 : EReal) else 0 := by
  rw [val_main_v2_apply, val_main_call0_v4_apply, val_main_call0_v2_apply, val_main_call0_v0_apply,
    val_main_call0_v1_apply, val_main_call0_c_apply, val_main_call0_v3_apply, val_main_v1_apply, val_main_cst_apply,
    val_main_call0_v5_apply, val_main_call0_cst_apply]
  show Scalar.select (IntOp.cmpi .sge (BitVec.ofNat 32 t.val + 0#32) (BitVec.ofNat 32 s.val))
      (Ideal.ofBits .f32 0x3F800000#32) (Ideal.ofBits .f32 0x00000000#32) = _
  rw [BitVec.add_zero, Ideal.ofBits_one_f32, Ideal.ofBits_zero_f32]
  have ht : (BitVec.ofNat 32 t.val).toNat < 2 ^ 31 := by rw [toNat_pos]; have := t.isLt; omega
  have hs : (BitVec.ofNat 32 s.val).toNat < 2 ^ 31 := by rw [toNat_pos]; have := s.isLt; omega
  have hiff := StableHlo.Predicate.sge_iff_toNat ht hs
  rw [toNat_pos, toNat_pos] at hiff
  by_cases hst : s.val ≤ t.val
  · rw [hiff.mpr hst, select_one, if_pos hst]
  · rw [eq_zero_of_ne_one (fun hc => hst (hiff.mp hc)), select_zero, if_neg hst]

/-- The last stage at an index given by its coordinates: batch `b`, head `h`, query position `t`, feature `d`. Each
summand over the keys is the score of `t` against the key, times the mask entry, times the key's value. -/
theorem val_main_v6_ix4 (x0 x1 x2 : (⟨S4x16x2048x64, .f32⟩ : BufTy).Contents (Elt Ideal))
    (b : Fin 4) (h : Fin 16) (t : Fin 2048) (d : Fin 64) :
    val_main_v6 (F := Ideal) x0 x1 x2 (ix4 b h t d) = attn x0 x1 x2 (ix4 b h t d) := by
  rw [val_main_v6_apply, attn_ix4]
  show _ = ∑ s : Fin 2048, ((∑ e : Fin 64, x0 (ix4 b h t e) * x1 (ix4 b h s e))
      * (if s.val ≤ t.val then (1 : EReal) else 0)) * x2 (ix4 b h s d)
  refine Finset.sum_congr rfl fun s _ => ?_
  have e1 : lidx_main_v6 (ix4 b h t d) s = ix4 b h t s := funext fun a => Fin.ext (by
    match a with | ⟨0, _⟩ => rfl | ⟨1, _⟩ => rfl | ⟨2, _⟩ => rfl | ⟨3, _⟩ => rfl)
  have e2 : ridx_main_v6 (ix4 b h t d) s = ix4 b h s d := funext fun a => Fin.ext (by
    match a with | ⟨0, _⟩ => rfl | ⟨1, _⟩ => rfl | ⟨2, _⟩ => rfl | ⟨3, _⟩ => rfl)
  have e3 : idx_main_v3 (idx_main_v4 (ix4 b h t s)) = ix2 t s := funext fun a => Fin.ext (by
    match a with | ⟨0, _⟩ => rfl | ⟨1, _⟩ => rfl)
  have e4 : ∀ e : Fin 64, lidx_main_v0 (ix4 b h t s) e = ix4 b h t e := fun e => funext fun a => Fin.ext (by
    match a with | ⟨0, _⟩ => rfl | ⟨1, _⟩ => rfl | ⟨2, _⟩ => rfl | ⟨3, _⟩ => rfl)
  have e5 : ∀ e : Fin 64, ridx_main_v0 (ix4 b h t s) e = ix4 b h s e := fun e => funext fun a => Fin.ext (by
    match a with | ⟨0, _⟩ => rfl | ⟨1, _⟩ => rfl | ⟨2, _⟩ => rfl | ⟨3, _⟩ => rfl)
  rw [e1, e2, val_main_v5_apply, val_main_v0_apply, val_main_v4_apply, val_main_v3_apply, e3, mask_apply,
    Ideal.mulf_def]
  simp only [e4, e5]

theorem val_main_v6_eq_attn (x0 x1 x2 : (⟨S4x16x2048x64, .f32⟩ : BufTy).Contents (Elt Ideal)) :
    val_main_v6 (F := Ideal) x0 x1 x2 = attn x0 x1 x2 := by
  funext i
  rw [eq_ix4 i]
  exact val_main_v6_ix4 x0 x1 x2 (i 0) (i 1) (i 2) (i 3)

end Cert.ReferenceIdeal.RefValue

end
-- ==== Proof.SpecBlocks.lean ====
/-
  One head's row of causal linear attention, read block by block.

  The 2048 keys split into four blocks of 512. For the query row `512 * qi + r`: a key block before `qi` lies wholly
  in the past, so its mask factor is one on every key; in block `qi` itself key `c` is kept exactly when `c ≤ r`; a
  later block lies wholly in the future, its mask factor is zero on every key and its terms vanish (`x * 0 = 0` and
  `0 * y = 0` for every extended real, so no finiteness is needed). The row is then the blocks' contributions added
  from the left onto zero, which is the order the accumulator takes them in.
-/
import proofs.«176356_j28656021799604_1_alg».proof.Proof.Spec

noncomputable section

namespace Cert.CausalAttn

variable (Q K V : Fin 2048 → Fin 64 → EReal)

/-- The positions as pairs (block, place in the block): `s = 512 * j + c` with `j = s / 512`, `c = s % 512`. -/
private def blockEquiv : Fin 4 × Fin 512 ≃ Fin 2048 where
  toFun p := row p.1 p.2
  invFun s := (⟨s.val / 512, by omega⟩, ⟨s.val % 512, by omega⟩)
  left_inv := by
    rintro ⟨j, c⟩
    refine Prod.ext (Fin.ext ?_) (Fin.ext ?_)
    · show (512 * j.val + c.val) / 512 = j.val
      omega
    · show (512 * j.val + c.val) % 512 = c.val
      omega
  right_inv := by
    intro s
    refine Fin.ext ?_
    show 512 * (s.val / 512) + s.val % 512 = s.val
    omega

/-- The term of key `row j c` in the row of query `t`. -/
private def term (t : Fin 2048) (d : Fin 64) (j : Fin 4) (c : Fin 512) : EReal :=
  (score Q K t (row j c) * (if (row j c).val ≤ t.val then (1 : EReal) else 0)) * V (row j c) d

/-- The sum over the 2048 keys is the sum over the four blocks of the sums over each block's 512 keys. -/
private theorem headAttn_blocks (t : Fin 2048) (d : Fin 64) :
    headAttn Q K V t d
      = ∑ c, term Q K V t d 0 c + ∑ c, term Q K V t d 1 c + ∑ c, term Q K V t d 2 c + ∑ c, term Q K V t d 3 c := by
  rw [← Fin.sum_univ_four (fun j => ∑ c, term Q K V t d j c), ← Fintype.sum_prod_type (f := fun p : Fin 4 × Fin 512 => term Q K V t d p.1 p.2)]
  exact (Equiv.sum_comp blockEquiv
    (fun s => (score Q K t s * (if s.val ≤ t.val then (1 : EReal) else 0)) * V s d)).symm

/-- A key block before the query's block lies in the past: every mask factor is one. -/
private theorem block_past (qi j : Fin 4) (h : j.val < qi.val) (r : Fin 512) (d : Fin 64) :
    ∑ c, term Q K V (row qi r) d j c = offBlock Q K V qi j r d := by
  unfold offBlock
  refine Finset.sum_congr rfl (fun c _ => ?_)
  have hle : (row j c).val ≤ (row qi r).val := by
    rw [row_val, row_val]; have := c.isLt; omega
  unfold term
  rw [if_pos hle, mul_one]

/-- The query's own block: key `c` is kept exactly when `c ≤ r`. -/
private theorem block_diag (qi : Fin 4) (r : Fin 512) (d : Fin 64) :
    ∑ c, term Q K V (row qi r) d qi c = diagBlock Q K V qi r d := by
  unfold diagBlock
  refine Finset.sum_congr rfl (fun c _ => ?_)
  unfold term
  by_cases h : c.val ≤ r.val
  · have hle : (row qi c).val ≤ (row qi r).val := by
      rw [row_val, row_val]; omega
    rw [if_pos hle, if_pos h, mul_one]
  · have hnle : ¬ (row qi c).val ≤ (row qi r).val := by
      rw [row_val, row_val]; omega
    rw [if_neg hnle, if_neg h, mul_zero]

/-- A key block after the query's block lies in the future: every mask factor is zero and every term vanishes. -/
private theorem block_future (qi j : Fin 4) (h : qi.val < j.val) (r : Fin 512) (d : Fin 64) :
    ∑ c, term Q K V (row qi r) d j c = 0 := by
  refine Finset.sum_eq_zero (fun c _ => ?_)
  have hnle : ¬ (row j c).val ≤ (row qi r).val := by
    rw [row_val, row_val]; have := r.isLt; omega
  unfold term
  rw [if_neg hnle, mul_zero, zero_mul]

theorem headAttn_row0 (r : Fin 512) (d : Fin 64) :
    headAttn Q K V (row 0 r) d = 0 + diagBlock Q K V 0 r d := by
  rw [headAttn_blocks, block_diag, block_future Q K V 0 1 (by decide), block_future Q K V 0 2 (by decide),
    block_future Q K V 0 3 (by decide), add_zero, add_zero, add_zero, zero_add]

theorem headAttn_row1 (r : Fin 512) (d : Fin 64) :
    headAttn Q K V (row 1 r) d = (0 + offBlock Q K V 1 0 r d) + diagBlock Q K V 1 r d := by
  rw [headAttn_blocks, block_past Q K V 1 0 (by decide), block_diag, block_future Q K V 1 2 (by decide),
    block_future Q K V 1 3 (by decide), add_zero, add_zero, zero_add]

theorem headAttn_row2 (r : Fin 512) (d : Fin 64) :
    headAttn Q K V (row 2 r) d
      = ((0 + offBlock Q K V 2 0 r d) + offBlock Q K V 2 1 r d) + diagBlock Q K V 2 r d := by
  rw [headAttn_blocks, block_past Q K V 2 0 (by decide), block_past Q K V 2 1 (by decide), block_diag,
    block_future Q K V 2 3 (by decide), add_zero, zero_add]

theorem headAttn_row3 (r : Fin 512) (d : Fin 64) :
    headAttn Q K V (row 3 r) d
      = (((0 + offBlock Q K V 3 0 r d) + offBlock Q K V 3 1 r d) + offBlock Q K V 3 2 r d) + diagBlock Q K V 3 r d := by
  rw [headAttn_blocks, block_past Q K V 3 0 (by decide), block_past Q K V 3 1 (by decide),
    block_past Q K V 3 2 (by decide), block_diag, zero_add]

end Cert.CausalAttn

end
-- ==== Proof.KernelBlocks.lean ====
/-
  What the kernel body stores, at an index.

  The body loads one head's queries, keys and values whole (`[1, 2048, 64]` each) and writes the head's result in four
  stores of 512 rows. For query block `qi` it adds, onto zero and from the left, one term per key block `kv ≤ qi`: the
  scores of the query rows against that block's keys (a matrix product with the transposed keys, contracted over the 64
  features), kept whole when `kv < qi` and kept on and below the diagonal when `kv = qi`, times the block's values
  (a second matrix product, contracted over the block's 512 keys). A change of float format is the identity on the
  extended reals, so the products read as plain sums. Each store's payload is therefore the block form of the head's
  row (`offBlock`, `diagBlock`), and the four stores together hold `headAttn` of the loaded head at every row.
-/
import proofs.«176356_j28656021799604_1_alg».proof.Proof.Spec
import proofs.«176356_j28656021799604_1_alg».proof.Proof.SpecBlocks
import proofs.«176356_j28656021799604_1_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

namespace Cert.KernelIdeal.Blocks

open Idealize.ShloMosaic Idealize.ShloMosaic.ValueIdx Idealize.ShloMosaic.TcCoe
open Cert.KernelIdeal Cert.KernelIdeal.Gen Cert.CausalAttn

/-! ## The two matrix products, read at an index -/

theorem lhs_sc_0 (i : S512x512.Idx) (q : dot_S512x64_S64x512_S512x512_1_0_0_1_n_n.contr.Idx) :
    (dot_S512x64_S64x512_S512x512_1_0_0_1_n_n.lhsIdx i q 0).val = (i 0).val := by
  unfold DotDims.lhsIdx
  rw [dif_neg (show ¬(0 : Fin S512x64.rank) ∈ dot_S512x64_S64x512_S512x512_1_0_0_1_n_n.lhsBatch by decide), dif_pos (show (0 : Fin S512x64.rank) ∈ dot_S512x64_S64x512_S512x512_1_0_0_1_n_n.lhsNonContracting by decide)]
  rfl
theorem lhs_sc_1 (i : S512x512.Idx) (q : dot_S512x64_S64x512_S512x512_1_0_0_1_n_n.contr.Idx) :
    (dot_S512x64_S64x512_S512x512_1_0_0_1_n_n.lhsIdx i q 1).val = (q ⟨0, by decide⟩).val :=
  dot_S512x64_S64x512_S512x512_1_0_0_1_n_n.lhsIdx_val_of_single rfl i q
theorem rhs_sc_0 (i : S512x512.Idx) (q : dot_S512x64_S64x512_S512x512_1_0_0_1_n_n.contr.Idx) :
    (dot_S512x64_S64x512_S512x512_1_0_0_1_n_n.rhsIdx i q 0).val = (q ⟨0, by decide⟩).val :=
  dot_S512x64_S64x512_S512x512_1_0_0_1_n_n.rhsIdx_val_of_single rfl i q
theorem rhs_sc_1 (i : S512x512.Idx) (q : dot_S512x64_S64x512_S512x512_1_0_0_1_n_n.contr.Idx) :
    (dot_S512x64_S64x512_S512x512_1_0_0_1_n_n.rhsIdx i q 1).val = (i 1).val := by
  unfold DotDims.rhsIdx
  rw [dif_neg (show ¬(1 : Fin S64x512.rank) ∈ dot_S512x64_S64x512_S512x512_1_0_0_1_n_n.rhsBatch by decide), dif_pos (show (1 : Fin S64x512.rank) ∈ dot_S512x64_S64x512_S512x512_1_0_0_1_n_n.rhsNonContracting by decide)]
  rfl

/-- Rows of `a` against columns of `b`, contracted over the 64 features, into a zero accumulator. -/
theorem matmul_sc_apply (a : FVec Ideal S512x64 .bf16) (b : FVec Ideal S64x512 .bf16) (r c : Fin 512) :
    matmul dot_S512x64_S64x512_S512x512_1_0_0_1_n_n none a b (constant S512x512 .f32 0x00000000#32) (ix2 r c)
      = ∑ e : Fin 64, a (ix2 r e) * b (ix2 e c) := by
  refine (Ideal.matmul_constant_zero_apply dot_S512x64_S64x512_S512x512_1_0_0_1_n_n none a b (ix2 r c)).trans ?_
  rw [← Equiv.sum_comp (ValueIdx.contrEquiv1 dot_S512x64_S64x512_S512x512_1_0_0_1_n_n 64 rfl rfl).symm]
  refine Finset.sum_congr rfl fun k _ => ?_
  have hk := ValueIdx.contrEquiv1_symm_val dot_S512x64_S64x512_S512x512_1_0_0_1_n_n 64 rfl rfl k
  have el : dot_S512x64_S64x512_S512x512_1_0_0_1_n_n.lhsIdx (ix2 r c) ((ValueIdx.contrEquiv1 dot_S512x64_S64x512_S512x512_1_0_0_1_n_n 64 rfl rfl).symm k) = ix2 r k := funext fun a => Fin.ext (by
    match a with
    | ⟨0, _⟩ => exact lhs_sc_0 _ _
    | ⟨1, _⟩ => exact (lhs_sc_1 _ _).trans hk)
  have er : dot_S512x64_S64x512_S512x512_1_0_0_1_n_n.rhsIdx (ix2 r c) ((ValueIdx.contrEquiv1 dot_S512x64_S64x512_S512x512_1_0_0_1_n_n 64 rfl rfl).symm k) = ix2 k c := funext fun a => Fin.ext (by
    match a with
    | ⟨0, _⟩ => exact (rhs_sc_0 _ _).trans hk
    | ⟨1, _⟩ => exact rhs_sc_1 _ _)
  rw [el, er]

theorem lhs_pv_0 (i : S512x64.Idx) (q : dot_S512x512_S512x64_S512x64_1_0_0_1_n_n.contr.Idx) :
    (dot_S512x512_S512x64_S512x64_1_0_0_1_n_n.lhsIdx i q 0).val = (i 0).val := by
  unfold DotDims.lhsIdx
  rw [dif_neg (show ¬(0 : Fin S512x512.rank) ∈ dot_S512x512_S512x64_S512x64_1_0_0_1_n_n.lhsBatch by decide), dif_pos (show (0 : Fin S512x512.rank) ∈ dot_S512x512_S512x64_S512x64_1_0_0_1_n_n.lhsNonContracting by decide)]
  rfl
theorem lhs_pv_1 (i : S512x64.Idx) (q : dot_S512x512_S512x64_S512x64_1_0_0_1_n_n.contr.Idx) :
    (dot_S512x512_S512x64_S512x64_1_0_0_1_n_n.lhsIdx i q 1).val = (q ⟨0, by decide⟩).val :=
  dot_S512x512_S512x64_S512x64_1_0_0_1_n_n.lhsIdx_val_of_single rfl i q
theorem rhs_pv_0 (i : S512x64.Idx) (q : dot_S512x512_S512x64_S512x64_1_0_0_1_n_n.contr.Idx) :
    (dot_S512x512_S512x64_S512x64_1_0_0_1_n_n.rhsIdx i q 0).val = (q ⟨0, by decide⟩).val :=
  dot_S512x512_S512x64_S512x64_1_0_0_1_n_n.rhsIdx_val_of_single rfl i q
theorem rhs_pv_1 (i : S512x64.Idx) (q : dot_S512x512_S512x64_S512x64_1_0_0_1_n_n.contr.Idx) :
    (dot_S512x512_S512x64_S512x64_1_0_0_1_n_n.rhsIdx i q 1).val = (i 1).val := by
  unfold DotDims.rhsIdx
  rw [dif_neg (show ¬(1 : Fin S512x64.rank) ∈ dot_S512x512_S512x64_S512x64_1_0_0_1_n_n.rhsBatch by decide), dif_pos (show (1 : Fin S512x64.rank) ∈ dot_S512x512_S512x64_S512x64_1_0_0_1_n_n.rhsNonContracting by decide)]
  rfl

/-- Rows of the (masked) scores against columns of the values, contracted over the block's 512 keys, into zero. -/
theorem matmul_pv_apply (s : FVec Ideal S512x512 .bf16) (v : FVec Ideal S512x64 .bf16) (r : Fin 512) (d : Fin 64) :
    matmul dot_S512x512_S512x64_S512x64_1_0_0_1_n_n none s v (constant S512x64 .f32 0x00000000#32) (ix2 r d)
      = ∑ c : Fin 512, s (ix2 r c) * v (ix2 c d) := by
  refine (Ideal.matmul_constant_zero_apply dot_S512x512_S512x64_S512x64_1_0_0_1_n_n none s v (ix2 r d)).trans ?_
  rw [← Equiv.sum_comp (ValueIdx.contrEquiv1 dot_S512x512_S512x64_S512x64_1_0_0_1_n_n 512 rfl rfl).symm]
  refine Finset.sum_congr rfl fun k _ => ?_
  have hk := ValueIdx.contrEquiv1_symm_val dot_S512x512_S512x64_S512x64_1_0_0_1_n_n 512 rfl rfl k
  have el : dot_S512x512_S512x64_S512x64_1_0_0_1_n_n.lhsIdx (ix2 r d) ((ValueIdx.contrEquiv1 dot_S512x512_S512x64_S512x64_1_0_0_1_n_n 512 rfl rfl).symm k) = ix2 r k := funext fun a => Fin.ext (by
    match a with
    | ⟨0, _⟩ => exact lhs_pv_0 _ _
    | ⟨1, _⟩ => exact (lhs_pv_1 _ _).trans hk)
  have er : dot_S512x512_S512x64_S512x64_1_0_0_1_n_n.rhsIdx (ix2 r d) ((ValueIdx.contrEquiv1 dot_S512x512_S512x64_S512x64_1_0_0_1_n_n 512 rfl rfl).symm k) = ix2 k d := funext fun a => Fin.ext (by
    match a with
    | ⟨0, _⟩ => exact (rhs_pv_0 _ _).trans hk
    | ⟨1, _⟩ => exact rhs_pv_1 _ _)
  rw [el, er]

/-! ## Slabs of the loaded head, the scores, the triangular mask -/

/-- A loaded block `[1, 2048, 64]` as one head's rows. -/
def hd (x : Vec Ideal S1x2048x64 .f32) : Fin 2048 → Fin 64 → EReal := fun t e => x (ix3 (0 : Fin 1) t e)

/-- The loaded block with its unit axis dropped. -/
abbrev flat (x : Vec Ideal S1x2048x64 .f32) : FVec Ideal S2048x64 .f32 :=
  shapeCast S2048x64 x shapeCasts_S1x2048x64_S2048x64

/-- 512 rows from row `o` on, in the matrix unit's input format (the same numbers). -/
def slab (o : Nat) (hsl : S2048x64.Slices ![o, 0] S512x64) (y : FVec Ideal S2048x64 .f32) : FVec Ideal S512x64 .bf16 :=
  truncf .bf16 (extractStridedSlice S512x64 ![o, 0] y hsl) bitsLt_bf16_f32

theorem slab_apply (o : Nat) (hsl : S2048x64.Slices ![o, 0] S512x64) (x : Vec Ideal S1x2048x64 .f32)
    (r : Fin 512) (e : Fin 64) (k : Fin 2048) (hk : k.val = o + r.val) :
    slab o hsl (flat x) (ix2 r e) = hd x k e := by
  show extractStridedSlice S512x64 ![o, 0] (flat x) hsl (ix2 r e) = _
  rw [slice2_axis0_apply o _ hsl r e k hk]
  exact shapeCast_1ab_ab_apply x shapeCasts_S1x2048x64_S2048x64 k e

/-- The scores of the query slab `a` against the key slab `b`: `a bᵀ`. -/
def sc (a b : FVec Ideal S512x64 .bf16) : FVec Ideal S512x512 .f32 :=
  matmul dot_S512x64_S64x512_S512x512_1_0_0_1_n_n none a
    (transpose S64x512 [1, 0] b transposes_S512x64_p1_0_S64x512) (constant S512x512 .f32 0x00000000#32)

theorem sc_apply (a b : FVec Ideal S512x64 .bf16) (r c : Fin 512) :
    sc a b (ix2 r c) = ∑ e : Fin 64, a (ix2 r e) * b (ix2 c e) := by
  unfold sc
  rw [matmul_sc_apply]
  refine Finset.sum_congr rfl fun e _ => ?_
  rw [transpose_ix2_apply]

/-- The scores kept where the key's position in its block does not exceed the query's, `z` elsewhere. -/
def lowerTri (s : FVec Ideal S512x512 .f32) (z : Ideal .f32) : FVec Ideal S512x512 .f32 :=
  select (cmpi .sge (iota .tc S512x512 32 [0] iota_S512x512_d0_w32) (iota .tc S512x512 32 [1] iota_S512x512_d1_w32)) s
    (broadcast S512x512 z)

theorem lowerTri_apply (s : FVec Ideal S512x512 .f32) (z : Ideal .f32) (r c : Fin 512) :
    lowerTri s z (ix2 r c) = if c.val ≤ r.val then s (ix2 r c) else z := by
  show Scalar.select (IntOp.cmpi .sge (BitVec.ofNat 32 (0 * 512 + r.val)) (BitVec.ofNat 32 (0 * 512 + c.val))) (s (ix2 r c)) z = _
  have hr : (BitVec.ofNat 32 (0 * 512 + r.val)).toNat = r.val := by
    rw [BitVec.toNat_ofNat]; have := r.isLt; omega
  have hc : (BitVec.ofNat 32 (0 * 512 + c.val)).toNat = c.val := by
    rw [BitVec.toNat_ofNat]; have := c.isLt; omega
  have hiff : IntOp.cmpi .sge (BitVec.ofNat 32 (0 * 512 + r.val)) (BitVec.ofNat 32 (0 * 512 + c.val)) = 1 ↔ c.val ≤ r.val := by
    have h := StableHlo.Predicate.sge_iff_toNat (a := BitVec.ofNat 32 (0 * 512 + r.val)) (b := BitVec.ofNat 32 (0 * 512 + c.val))
      (by rw [hr]; have := r.isLt; omega) (by rw [hc]; have := c.isLt; omega)
    rw [hr, hc] at h
    exact h
  unfold Scalar.select
  by_cases h : c.val ≤ r.val
  · rw [if_pos h, if_pos (hiff.mpr h)]
  · rw [if_neg h, if_neg (fun h' => h (hiff.mp h'))]

/-! ## One key block's contribution -/

/-- A key block wholly in the past: the scores, unmasked, times the block's values. -/
def offTerm (a b v : FVec Ideal S512x64 .bf16) : FVec Ideal S512x64 .f32 :=
  matmul dot_S512x512_S512x64_S512x64_1_0_0_1_n_n none (truncf .bf16 (sc a b) bitsLt_bf16_f32) v
    (constant S512x64 .f32 0x00000000#32)

/-- The query block's own key block: the scores masked to the lower triangle, times the block's values. -/
def diagTerm (a b v : FVec Ideal S512x64 .bf16) (z : Ideal .f32) : FVec Ideal S512x64 .f32 :=
  matmul dot_S512x512_S512x64_S512x64_1_0_0_1_n_n none (truncf .bf16 (lowerTri (sc a b) z) bitsLt_bf16_f32) v
    (constant S512x64 .f32 0x00000000#32)

theorem offTerm_apply (x0 x1 x2 : Vec Ideal S1x2048x64 .f32) (oq ok : Nat)
    (hq : S2048x64.Slices ![oq, 0] S512x64) (hk : S2048x64.Slices ![ok, 0] S512x64)
    (qi kv : Fin 4) (eq : oq = 512 * qi.val) (ek : ok = 512 * kv.val) (r : Fin 512) (d : Fin 64) :
    offTerm (slab oq hq (flat x0)) (slab ok hk (flat x1)) (slab ok hk (flat x2)) (ix2 r d)
      = offBlock (hd x0) (hd x1) (hd x2) qi kv r d := by
  unfold offTerm offBlock score
  rw [matmul_pv_apply]
  refine Finset.sum_congr rfl fun c _ => ?_
  show sc _ _ (ix2 r c) * _ = _
  rw [sc_apply, slab_apply ok hk x2 c d (row kv c) (by rw [row_val, ek])]
  refine congrArg (· * hd x2 (row kv c) d) (Finset.sum_congr rfl fun e _ => ?_)
  rw [slab_apply oq hq x0 r e (row qi r) (by rw [row_val, eq]), slab_apply ok hk x1 c e (row kv c) (by rw [row_val, ek])]

theorem diagTerm_apply (x0 x1 x2 : Vec Ideal S1x2048x64 .f32) (o : Nat)
    (ho : S2048x64.Slices ![o, 0] S512x64) (qi : Fin 4) (eo : o = 512 * qi.val) (z : Ideal .f32) (hz : z = 0)
    (r : Fin 512) (d : Fin 64) :
    diagTerm (slab o ho (flat x0)) (slab o ho (flat x1)) (slab o ho (flat x2)) z (ix2 r d)
      = diagBlock (hd x0) (hd x1) (hd x2) qi r d := by
  subst hz
  unfold diagTerm diagBlock score
  rw [matmul_pv_apply]
  refine Finset.sum_congr rfl fun c _ => ?_
  show lowerTri _ _ (ix2 r c) * _ = _
  rw [lowerTri_apply, sc_apply, slab_apply o ho x2 c d (row qi c) (by rw [row_val, eo])]
  refine congrArg (· * hd x2 (row qi c) d) (if_congr Iff.rfl (Finset.sum_congr rfl fun e _ => ?_) rfl)
  rw [slab_apply o ho x0 r e (row qi r) (by rw [row_val, eo]), slab_apply o ho x1 c e (row qi c) (by rw [row_val, eo])]

/-! ## The four stores' payloads -/

/-- The zero the accumulator starts from and the mask puts above the diagonal. -/
abbrev z0 : Ideal .f32 := Scalar.ofBits .f32 0x00000000#32

theorem z0_eq : z0 = 0 := Ideal.ofBits_zero_f32

abbrev h0 : S2048x64.Slices ![0, 0] S512x64 := Gen.slices_S2048x64_o0_0_S512x64
abbrev h512 : S2048x64.Slices ![512, 0] S512x64 := Gen.slices_S2048x64_o512_0_S512x64
abbrev h1024 : S2048x64.Slices ![1024, 0] S512x64 := Gen.slices_S2048x64_o1024_0_S512x64
abbrev h1536 : S2048x64.Slices ![1536, 0] S512x64 := Gen.slices_S2048x64_o1536_0_S512x64

/-- Rows 0–511: the diagonal block alone, onto zero. -/
theorem pay_row0 (x0 x1 x2 : Vec Ideal S1x2048x64 .f32) (u : Fin 1) (r : Fin 512) (d : Fin 64) :
    k0_pay5 x0 x1 x2 (ix3 u r d) = headAttn (hd x0) (hd x1) (hd x2) (row 0 r) d := by
  rw [headAttn_row0]
  show shapeCast S1x512x64 (addf (broadcast S512x64 z0)
      (diagTerm (slab 0 h0 (flat x0)) (slab 0 h0 (flat x1)) (slab 0 h0 (flat x2)) z0))
    Gen.shapeCasts_S512x64_S1x512x64 (ix3 u r d) = _
  rw [shapeCast_ab_1ab_apply]
  show z0 + diagTerm (slab 0 h0 (flat x0)) (slab 0 h0 (flat x1)) (slab 0 h0 (flat x2)) z0 (ix2 r d) = _
  rw [diagTerm_apply x0 x1 x2 0 h0 0 rfl z0 z0_eq, z0_eq]

/-- Rows 512–1023: key block 0 whole, then the diagonal block. -/
theorem pay_row1 (x0 x1 x2 : Vec Ideal S1x2048x64 .f32) (u : Fin 1) (r : Fin 512) (d : Fin 64) :
    k0_pay9 (k0_pay4 x2) (k0_pay6 x0) (k0_pay7 x0 x1 x2) (k0_pay8 x1) (ix3 u r d)
      = headAttn (hd x0) (hd x1) (hd x2) (row 1 r) d := by
  rw [headAttn_row1]
  show shapeCast S1x512x64 (addf (addf (broadcast S512x64 z0)
        (offTerm (slab 512 h512 (flat x0)) (slab 0 h0 (flat x1)) (slab 0 h0 (flat x2))))
      (diagTerm (slab 512 h512 (flat x0)) (slab 512 h512 (flat x1)) (slab 512 h512 (flat x2)) z0))
    Gen.shapeCasts_S512x64_S1x512x64 (ix3 u r d) = _
  rw [shapeCast_ab_1ab_apply]
  show (z0 + offTerm (slab 512 h512 (flat x0)) (slab 0 h0 (flat x1)) (slab 0 h0 (flat x2)) (ix2 r d))
      + diagTerm (slab 512 h512 (flat x0)) (slab 512 h512 (flat x1)) (slab 512 h512 (flat x2)) z0 (ix2 r d) = _
  rw [offTerm_apply x0 x1 x2 512 0 h512 h0 1 0 rfl rfl, diagTerm_apply x0 x1 x2 512 h512 1 rfl z0 z0_eq, z0_eq]

/-- Rows 1024–1535: key blocks 0 and 1 whole, then the diagonal block. -/
theorem pay_row2 (x0 x1 x2 : Vec Ideal S1x2048x64 .f32) (u : Fin 1) (r : Fin 512) (d : Fin 64) :
    k0_pay15 (k0_pay11 (k0_pay2 x0) (k0_pay3 x1) (k0_pay4 x2)) (k0_pay12 (k0_pay4 x2))
        (k0_pay13 (k0_pay2 x0) (k0_pay3 x1)) k0_pay14 (Scalar.ofBits .f32 0x00000000#32) (ix3 u r d)
      = headAttn (hd x0) (hd x1) (hd x2) (row 2 r) d := by
  rw [headAttn_row2]
  show shapeCast S1x512x64 (addf (addf (addf (broadcast S512x64 z0)
          (offTerm (slab 1024 h1024 (flat x0)) (slab 0 h0 (flat x1)) (slab 0 h0 (flat x2))))
        (offTerm (slab 1024 h1024 (flat x0)) (slab 512 h512 (flat x1)) (slab 512 h512 (flat x2))))
      (diagTerm (slab 1024 h1024 (flat x0)) (slab 1024 h1024 (flat x1)) (slab 1024 h1024 (flat x2)) z0))
    Gen.shapeCasts_S512x64_S1x512x64 (ix3 u r d) = _
  rw [shapeCast_ab_1ab_apply]
  show ((z0 + offTerm (slab 1024 h1024 (flat x0)) (slab 0 h0 (flat x1)) (slab 0 h0 (flat x2)) (ix2 r d))
        + offTerm (slab 1024 h1024 (flat x0)) (slab 512 h512 (flat x1)) (slab 512 h512 (flat x2)) (ix2 r d))
      + diagTerm (slab 1024 h1024 (flat x0)) (slab 1024 h1024 (flat x1)) (slab 1024 h1024 (flat x2)) z0 (ix2 r d) = _
  rw [offTerm_apply x0 x1 x2 1024 0 h1024 h0 2 0 rfl rfl, offTerm_apply x0 x1 x2 1024 512 h1024 h512 2 1 rfl rfl,
    diagTerm_apply x0 x1 x2 1024 h1024 2 rfl z0 z0_eq, z0_eq]

/-- Rows 1536–2047: key blocks 0, 1 and 2 whole, then the diagonal block. -/
theorem pay_row3 (x0 x1 x2 : Vec Ideal S1x2048x64 .f32) (u : Fin 1) (r : Fin 512) (d : Fin 64) :
    k0_pay1 (k0_pay17 (k0_pay2 x0) (k0_pay3 x1) (k0_pay4 x2)) (k0_pay18 (k0_pay4 x2))
        (k0_pay19 (k0_pay2 x0) (k0_pay3 x1)) k0_pay20 (ix3 u r d)
      = headAttn (hd x0) (hd x1) (hd x2) (row 3 r) d := by
  rw [headAttn_row3]
  show shapeCast S1x512x64 (addf (addf (addf (addf (broadcast S512x64 z0)
            (offTerm (slab 1536 h1536 (flat x0)) (slab 0 h0 (flat x1)) (slab 0 h0 (flat x2))))
          (offTerm (slab 1536 h1536 (flat x0)) (slab 512 h512 (flat x1)) (slab 512 h512 (flat x2))))
        (offTerm (slab 1536 h1536 (flat x0)) (slab 1024 h1024 (flat x1)) (slab 1024 h1024 (flat x2))))
      (diagTerm (slab 1536 h1536 (flat x0)) (slab 1536 h1536 (flat x1)) (slab 1536 h1536 (flat x2)) z0))
    Gen.shapeCasts_S512x64_S1x512x64 (ix3 u r d) = _
  rw [shapeCast_ab_1ab_apply]
  show (((z0 + offTerm (slab 1536 h1536 (flat x0)) (slab 0 h0 (flat x1)) (slab 0 h0 (flat x2)) (ix2 r d))
          + offTerm (slab 1536 h1536 (flat x0)) (slab 512 h512 (flat x1)) (slab 512 h512 (flat x2)) (ix2 r d))
        + offTerm (slab 1536 h1536 (flat x0)) (slab 1024 h1024 (flat x1)) (slab 1024 h1024 (flat x2)) (ix2 r d))
      + diagTerm (slab 1536 h1536 (flat x0)) (slab 1536 h1536 (flat x1)) (slab 1536 h1536 (flat x2)) z0 (ix2 r d) = _
  rw [offTerm_apply x0 x1 x2 1536 0 h1536 h0 3 0 rfl rfl, offTerm_apply x0 x1 x2 1536 512 h1536 h512 3 1 rfl rfl,
    offTerm_apply x0 x1 x2 1536 1024 h1536 h1024 3 2 rfl rfl, diagTerm_apply x0 x1 x2 1536 h1536 3 rfl z0 z0_eq, z0_eq]

/-! ## The four stores together -/

theorem hz3 : (![0, 0, 0] : Fin 3 → Nat) = fun _ => 0 := funext fun a => by fin_cases a <;> rfl

/-- One head's result, laid out as the staging buffer `[1, 2048, 64]` the body writes. -/
def headOut (x0 x1 x2 : Vec Ideal S1x2048x64 .f32) : Vec Ideal S1x2048x64 .f32 :=
  fun y => headAttn (hd x0) (hd x1) (hd x2) ⟨(y 1).val, (y 1).isLt⟩ ⟨(y 2).val, (y 2).isLt⟩

/-- What the body leaves in the output's staging buffer: the four stores tile its 2048 rows, and each store's
    payload is the head's result on its 512 rows. -/
theorem out0_3_eq (x0 x1 x2 : Vec Ideal S1x2048x64 .f32) : out0_3 x0 x1 x2 = headOut x0 x1 x2 := by
  funext y
  unfold out0_3
  simp only [View.ld_unit_zero (S := S1x2048x64) hz3]
  refine View.canon_apply_of_pieces (headOut x0 x1 x2) _ ?_ y (cover0_3 _ _ _ _ y)
  intro p hp x
  simp only [List.mem_cons, List.mem_nil_iff, or_false] at hp
  rcases hp with rfl | rfl | rfl | rfl
  · rw [eq_ix3 (n0 := 1) (n1 := 512) (n2 := 64) x]
    refine (pay_row3 x0 x1 x2 _ _ _).trans ?_
    exact congrArg₂ (headAttn (hd x0) (hd x1) (hd x2))
      (Fin.ext (by show 512 * 3 + (x 1).val = 1536 + 1 * (x 1).val; omega))
      (Fin.ext (by show (x 2).val = 0 + 1 * (x 2).val; omega))
  · rw [eq_ix3 (n0 := 1) (n1 := 512) (n2 := 64) x]
    refine (pay_row2 x0 x1 x2 _ _ _).trans ?_
    exact congrArg₂ (headAttn (hd x0) (hd x1) (hd x2))
      (Fin.ext (by show 512 * 2 + (x 1).val = 1024 + 1 * (x 1).val; omega))
      (Fin.ext (by show (x 2).val = 0 + 1 * (x 2).val; omega))
  · rw [eq_ix3 (n0 := 1) (n1 := 512) (n2 := 64) x]
    refine (pay_row1 x0 x1 x2 _ _ _).trans ?_
    exact congrArg₂ (headAttn (hd x0) (hd x1) (hd x2))
      (Fin.ext (by show 512 * 1 + (x 1).val = 512 + 1 * (x 1).val; omega))
      (Fin.ext (by show (x 2).val = 0 + 1 * (x 2).val; omega))
  · rw [eq_ix3 (n0 := 1) (n1 := 512) (n2 := 64) x]
    refine (pay_row0 x0 x1 x2 _ _ _).trans ?_
    exact congrArg₂ (headAttn (hd x0) (hd x1) (hd x2))
      (Fin.ext (by show 512 * 0 + (x 1).val = 0 + 1 * (x 1).val; omega))
      (Fin.ext (by show (x 2).val = 0 + 1 * (x 2).val; omega))

end Cert.KernelIdeal.Blocks

end
-- ==== Proof.HeadsLayout.lean ====
/-
  Heads-major layout. The program merges the batch and head axes before the call (`[4, 16, 2048, 64]` to
  `[64, 2048, 64]`, head `g = 16 * b + h`) and splits them again after it. Both are reshapes, so entry `(g, t, e)` of
  the merged array is entry `(b, h, t, e)` of the original: the two have the same row-major position. Attention is
  computed head by head, so computing it on the merged arrays and splitting the result is `attn` of the originals.
-/
import proofs.«176356_j28656021799604_1_alg».proof.Proof.Spec
import proofs.«176356_j28656021799604_1_alg».proof.Proof.Gen.KernelIdeal
import Idealize.ShloMosaic.Lib.ValueIdx
import Idealize.ShloMosaic.Lib.Pipeline.Value

noncomputable section

namespace Cert.KernelIdeal.Layout

open Idealize.ShloMosaic Idealize.ShloMosaic.ValueIdx Idealize.ShloMosaic.TcCoe
open Cert.KernelIdeal Cert.KernelIdeal.Gen Cert.CausalAttn

/-- Attention on heads-major arrays: entry `(g, t, d)` is head `g`'s row `t`, feature `d`. -/
def attn3 (q k v : Vec Ideal S64x2048x64 .f32) : Vec Ideal S64x2048x64 .f32 := fun i =>
  headAttn (fun t e => q (ix3 (⟨(i 0).val, (i 0).isLt⟩ : Fin 64) t e))
    (fun s e => k (ix3 (⟨(i 0).val, (i 0).isLt⟩ : Fin 64) s e))
    (fun s d => v (ix3 (⟨(i 0).val, (i 0).isLt⟩ : Fin 64) s d))
    (⟨(i 1).val, (i 1).isLt⟩ : Fin 2048) (⟨(i 2).val, (i 2).isLt⟩ : Fin 64)

theorem attn3_ix3 (q k v : Vec Ideal S64x2048x64 .f32) (g : Fin 64) (t : Fin 2048) (d : Fin 64) :
    attn3 q k v (ix3 g t d)
      = headAttn (fun t e => q (ix3 g t e)) (fun s e => k (ix3 g s e)) (fun s d => v (ix3 g s d)) t d := rfl

/-- The merged array at `(16 * b + h, t, e)` is the original at `(b, h, t, e)`. -/
theorem merged_apply (x : Vec Ideal S4x16x2048x64 .f32) (b : Fin 4) (h : Fin 16) (t : Fin 2048) (e : Fin 64)
    (g : Fin 64) (hg : g.val = 16 * b.val + h.val) :
    shapeCast S64x2048x64 x Gen.shapeCasts_S4x16x2048x64_S64x2048x64 (ix3 g t e) = x (ix4 b h t e) :=
  shapeCast_apply x _ _ _ (by
    rw [Shape.rowMajor_val_four, Shape.rowMajor_val_three]
    show ((b.val * 16 + h.val) * 2048 + t.val) * 64 + e.val = (g.val * 2048 + t.val) * 64 + e.val
    rw [hg]; omega)

/-- Merge, attend head by head, split: attention of the original arrays. -/
theorem split_attn3_merged (q k v : Vec Ideal S4x16x2048x64 .f32) :
    shapeCast S4x16x2048x64
        (attn3 (shapeCast S64x2048x64 q Gen.shapeCasts_S4x16x2048x64_S64x2048x64)
          (shapeCast S64x2048x64 k Gen.shapeCasts_S4x16x2048x64_S64x2048x64)
          (shapeCast S64x2048x64 v Gen.shapeCasts_S4x16x2048x64_S64x2048x64))
        Gen.shapeCasts_S64x2048x64_S4x16x2048x64
      = attn q k v := by
  funext i
  obtain ⟨b, h, t, d, rfl⟩ : ∃ (b : Fin 4) (h : Fin 16) (t : Fin 2048) (d : Fin 64), i = ix4 b h t d :=
    ⟨i 0, i 1, i 2, i 3, eq_ix4 i⟩
  have hg : 16 * b.val + h.val < 64 := by have := b.isLt; have := h.isLt; omega
  rw [shapeCast_apply _ Gen.shapeCasts_S64x2048x64_S4x16x2048x64 (ix4 b h t d) (ix3 (⟨16 * b.val + h.val, hg⟩ : Fin 64) t d) (by
      rw [Shape.rowMajor_val_three, Shape.rowMajor_val_four]
      show ((16 * b.val + h.val) * 2048 + t.val) * 64 + d.val = ((b.val * 16 + h.val) * 2048 + t.val) * 64 + d.val
      omega),
    attn3_ix3, attn_ix4]
  have e0 : (fun t e => shapeCast S64x2048x64 q Gen.shapeCasts_S4x16x2048x64_S64x2048x64 (ix3 (⟨16 * b.val + h.val, hg⟩ : Fin 64) t e))
      = fun t e => q (ix4 b h t e) := funext fun t => funext fun e => merged_apply q b h t e _ rfl
  have e1 : (fun s e => shapeCast S64x2048x64 k Gen.shapeCasts_S4x16x2048x64_S64x2048x64 (ix3 (⟨16 * b.val + h.val, hg⟩ : Fin 64) s e))
      = fun s e => k (ix4 b h s e) := funext fun s => funext fun e => merged_apply k b h s e _ rfl
  have e2 : (fun s d => shapeCast S64x2048x64 v Gen.shapeCasts_S4x16x2048x64_S64x2048x64 (ix3 (⟨16 * b.val + h.val, hg⟩ : Fin 64) s d))
      = fun s d => v (ix4 b h s d) := funext fun s => funext fun d => merged_apply v b h s d _ rfl
  rw [e0, e1, e2]

end Cert.KernelIdeal.Layout

end
-- ==== Proof.KernelArray.lean ====
/-
  The kernel's run, read as values.

  The grid has one point per head. At point `t` each input window holds head `t`'s whole `[1, 2048, 64]` slice of
  its merged array, and the output window's block is head `t`'s slice of the result; what the body leaves there is
  the head's attention (`out0_3_eq`). The 64 blocks tile the result array, so after the region it holds attention
  head by head of the three merged arrays; the merged arrays are reshapes of the arguments and the result is
  reshaped back, which is `attn` of the arguments.
-/
import proofs.«176356_j28656021799604_1_alg».proof.Proof.KernelBlocks
import proofs.«176356_j28656021799604_1_alg».proof.Proof.HeadsLayout
import proofs.«176356_j28656021799604_1_alg».proof.Proof.Gen.KernelIdeal.Frame
import Idealize.ShloMosaic.Lib.Pipeline.Value
import Idealize.ShloMosaic.Lib.StableHlo.Run

set_option maxRecDepth 16384

noncomputable section

namespace Cert.KernelIdeal.Arr

open Idealize.ShloMosaic Idealize.ShloMosaic.TcCoe Idealize.ShloMosaic.ValueIdx Idealize.SL.Sem
open Cert.KernelIdeal Cert.KernelIdeal.Gen Cert.KernelIdeal.Blocks Cert.KernelIdeal.Layout Cert.CausalAttn
open Idealize.ShloMosaic.Pipeline (Dat)

variable (m : (ℓ : Loc nD τ sig) → Buf (Elt Ideal) ℓ) (ρ : Dev nD → PrngReg)

/-! ## The windows' blocks -/

/-- The printed index maps, decided over the grid: at point `t` every window's block is number `t` along the head
    axis and number zero along the other two. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- Input window 0's block at point `t` is head `t` of the merged queries. -/
theorem iblk0_apply (c : Dev nD) (t : Fin cfg0.N) (s : Fin 2048) (e : Fin 64) (g : Fin 64) (hg : g.val = t.val) :
    iblk m c 0 t (ix3 (0 : Fin 1) s e) = V m c main_v0 (ix3 g s e) := by
  obtain ⟨e0, e1, e2, -⟩ := idx_facts t
  show V m c main_v0 (((cfg0.win 0).blk t).view.emb (ix3 (0 : Fin 1) s e)) = V m c main_v0 (ix3 g s e)
  refine congrArg (V m c main_v0) (funext fun a => Fin.ext ?_)
  match a with
  | ⟨0, _⟩ => show win0_0.index t (0 : Fin 3) * 1 + 1 * 0 = g.val; omega
  | ⟨1, _⟩ => show win0_0.index t (1 : Fin 3) * 2048 + 1 * s.val = s.val; omega
  | ⟨2, _⟩ => show win0_0.index t (2 : Fin 3) * 64 + 1 * e.val = e.val; omega

/-- Input window 1's block at point `t` is head `t` of the merged keys. -/
theorem iblk1_apply (c : Dev nD) (t : Fin cfg0.N) (s : Fin 2048) (e : Fin 64) (g : Fin 64) (hg : g.val = t.val) :
    iblk m c 1 t (ix3 (0 : Fin 1) s e) = V m c main_v1 (ix3 g s e) := by
  obtain ⟨-, -, -, e0, e1, e2, -⟩ := idx_facts t
  show V m c main_v1 (((cfg0.win 1).blk t).view.emb (ix3 (0 : Fin 1) s e)) = V m c main_v1 (ix3 g s e)
  refine congrArg (V m c main_v1) (funext fun a => Fin.ext ?_)
  match a with
  | ⟨0, _⟩ => show win0_1.index t (0 : Fin 3) * 1 + 1 * 0 = g.val; omega
  | ⟨1, _⟩ => show win0_1.index t (1 : Fin 3) * 2048 + 1 * s.val = s.val; omega
  | ⟨2, _⟩ => show win0_1.index t (2 : Fin 3) * 64 + 1 * e.val = e.val; omega

/-- Input window 2's block at point `t` is head `t` of the merged values. -/
theorem iblk2_apply (c : Dev nD) (t : Fin cfg0.N) (s : Fin 2048) (e : Fin 64) (g : Fin 64) (hg : g.val = t.val) :
    iblk m c 2 t (ix3 (0 : Fin 1) s e) = V m c main_v2 (ix3 g s e) := by
  obtain ⟨-, -, -, -, -, -, e0, e1, e2, -⟩ := idx_facts t
  show V m c main_v2 (((cfg0.win 2).blk t).view.emb (ix3 (0 : Fin 1) s e)) = V m c main_v2 (ix3 g s e)
  refine congrArg (V m c main_v2) (funext fun a => Fin.ext ?_)
  match a with
  | ⟨0, _⟩ => show win0_2.index t (0 : Fin 3) * 1 + 1 * 0 = g.val; omega
  | ⟨1, _⟩ => show win0_2.index t (1 : Fin 3) * 2048 + 1 * s.val = s.val; omega
  | ⟨2, _⟩ => show win0_2.index t (2 : Fin 3) * 64 + 1 * e.val = e.val; omega

/-! ## From blocks to the array -/

/-- What point `t` writes back is head `t`'s block of head-by-head attention of the merged arrays. -/
theorem flushed3_eq (c : Dev nD) (t : Fin cfg0.N) :
    (dats m 0 c).flushed 3 t
      = ((cfg0.win 3).blk t).view.read (Elt Ideal) (attn3 (V m c main_v0) (V m c main_v1) (V m c main_v2)) := by
  show (cfg0.win 3).cut (grid0.coords t) ((dats m 0 c).after 3 t) = _
  rw [after0_3, out0_3_eq (iblk m c 0 t) (iblk m c 1 t) (iblk m c 2 t)]
  obtain ⟨-, -, -, -, -, -, -, -, -, e0, e1, e2⟩ := idx_facts t
  have hg : t.val < 64 := lt_of_lt_of_eq t.isLt (show cfg0.N = 64 from N_0)
  funext j
  show headAttn (hd (iblk m c 0 t)) (hd (iblk m c 1 t)) (hd (iblk m c 2 t))
      (⟨(j 1).val, (j 1).isLt⟩ : Fin 2048) (⟨(j 2).val, (j 2).isLt⟩ : Fin 64)
    = attn3 (V m c main_v0) (V m c main_v1) (V m c main_v2) (((cfg0.win 3).blk t).view.emb j)
  have hemb : ((cfg0.win 3).blk t).view.emb j
      = ix3 (⟨t.val, hg⟩ : Fin 64) (⟨(j 1).val, (j 1).isLt⟩ : Fin 2048) (⟨(j 2).val, (j 2).isLt⟩ : Fin 64) := by
    funext a; apply Fin.ext
    match a with
    | ⟨0, _⟩ =>
      show win0_3.index t (0 : Fin 3) * 1 + 1 * (j 0).val = t.val
      have hj : (j 0).val < 1 := (j 0).isLt
      omega
    | ⟨1, _⟩ => show win0_3.index t (1 : Fin 3) * 2048 + 1 * (j 1).val = (j 1).val; omega
    | ⟨2, _⟩ => show win0_3.index t (2 : Fin 3) * 64 + 1 * (j 2).val = (j 2).val; omega
  rw [hemb, attn3_ix3]
  have h0 : hd (iblk m c 0 t) = fun s e => V m c main_v0 (ix3 (⟨t.val, hg⟩ : Fin 64) s e) :=
    funext fun s => funext fun e => iblk0_apply m c t s e _ rfl
  have h1 : hd (iblk m c 1 t) = fun s e => V m c main_v1 (ix3 (⟨t.val, hg⟩ : Fin 64) s e) :=
    funext fun s => funext fun e => iblk1_apply m c t s e _ rfl
  have h2 : hd (iblk m c 2 t) = fun s e => V m c main_v2 (ix3 (⟨t.val, hg⟩ : Fin 64) s e) :=
    funext fun s => funext fun e => iblk2_apply m c t s e _ rfl
  rw [h0, h1, h2]

/-- An index of the result array is in point `t`'s block iff each coordinate is in the block's range on its axis. -/
theorem mem_blk3 (t : Fin cfg0.N) (i : S64x2048x64.Idx) :
    i ∈ ((cfg0.win 3).blk t).view.set ↔ ∀ a : Fin 3, win0_3.index t a * S1x2048x64.size a ≤ (i a).val
      ∧ (i a).val < win0_3.index t a * S1x2048x64.size a + S1x2048x64.size a := by
  show i ∈ ((View.whole main_v3).slice (win0_3.rect t)).set ↔ _
  rw [View.set_slice_whole, Rect.mem_set_unit]
  exact Iff.rfl

/-- Every index of the result array is in the block of the point that is its head. -/
theorem cover3 (i : S64x2048x64.Idx) :
    ∃ t : Fin cfg0.N, (cfg0.win 3).flush t = true ∧ i ∈ ((cfg0.win 3).blk t).view.set := by
  have hi0 : (i 0).val < 64 := (i 0).isLt
  have hi1 : (i 1).val < 2048 := (i 1).isLt
  have hi2 : (i 2).val < 64 := (i 2).isLt
  have hN : (i 0).val < cfg0.N := lt_of_lt_of_eq hi0 (show cfg0.N = 64 from N_0).symm
  refine ⟨⟨(i 0).val, hN⟩, flush0_3 _, ?_⟩
  rw [mem_blk3]
  obtain ⟨-, -, -, -, -, -, -, -, -, e0, e1, e2⟩ := idx_facts ⟨(i 0).val, hN⟩
  have e0' : win0_3.index ⟨(i 0).val, hN⟩ (0 : Fin 3) = (i 0).val := e0
  intro a
  match a with
  | ⟨0, _⟩ =>
    show win0_3.index ⟨(i 0).val, hN⟩ (0 : Fin 3) * 1 ≤ (i 0).val ∧ (i 0).val < win0_3.index ⟨(i 0).val, hN⟩ (0 : Fin 3) * 1 + 1
    omega
  | ⟨1, _⟩ =>
    show win0_3.index ⟨(i 0).val, hN⟩ (1 : Fin 3) * 2048 ≤ (i 1).val ∧ (i 1).val < win0_3.index ⟨(i 0).val, hN⟩ (1 : Fin 3) * 2048 + 2048
    omega
  | ⟨2, _⟩ =>
    show win0_3.index ⟨(i 0).val, hN⟩ (2 : Fin 3) * 64 ≤ (i 2).val ∧ (i 2).val < win0_3.index ⟨(i 0).val, hN⟩ (2 : Fin 3) * 64 + 64
    omega

/-- The result array after the region: attention head by head of the merged arrays as the region finds them. -/
theorem final3 (c : Dev nD) :
    (dats m 0 c).arrAt 3 cfg0.N = attn3 (V m c main_v0) (V m c main_v1) (V m c main_v2) :=
  (dats m 0 c).arrAt_eq_of_cover 3 _ (fun t _ => flushed3_eq m c t) cover3

/-! ## The reshapes around the region -/

/-- The region finds the merged queries: the first argument, reshaped. -/
theorem V_main_v0 (c : Dev nD) :
    V m c main_v0 = shapeCast S64x2048x64 (m ((c : Thread nD τ).loc main_arg0)) Gen.shapeCasts_S4x16x2048x64_S64x2048x64 := by
  show StableHlo.after hostOps0 (fun b => m (c, b)) (Proc.devRef .tc main_v0) = _
  after_results
  rfl

/-- The merged keys: the second argument, reshaped. -/
theorem V_main_v1 (c : Dev nD) :
    V m c main_v1 = shapeCast S64x2048x64 (m ((c : Thread nD τ).loc main_arg1)) Gen.shapeCasts_S4x16x2048x64_S64x2048x64 := by
  show StableHlo.after hostOps0 (fun b => m (c, b)) (Proc.devRef .tc main_v1) = _
  after_results
  rfl

/-- The merged values: the third argument, reshaped. -/
theorem V_main_v2 (c : Dev nD) :
    V m c main_v2 = shapeCast S64x2048x64 (m ((c : Thread nD τ).loc main_arg2)) Gen.shapeCasts_S4x16x2048x64_S64x2048x64 := by
  show StableHlo.after hostOps0 (fun b => m (c, b)) (Proc.devRef .tc main_v2) = _
  after_results
  rfl

/-- The program's result: the region's result array, split back into batch and head. -/
theorem tail_main_v4 (c : Dev nD) :
    Pipeline.afterTail₀ cfgs (dats m) 0 (V0 m) [hostOps1] c main_v4
      = shapeCast S4x16x2048x64 ((dats m 0 c).arrAt 3 cfg0.N) Gen.shapeCasts_S64x2048x64_S4x16x2048x64 := by
  unfold Pipeline.afterTail₀
  show StableHlo.after hostOps1 _ (Proc.devRef .tc main_v4) = _
  after_results
  show shapeCast S4x16x2048x64
      (Pipeline.withArrays spec0 c (V0 m c) (fun w => (dats m 0 c).arrAt w cfg0.N) (Proc.devRef .tc (Pipeline.arrRef spec0 3)))
      Gen.shapeCasts_S64x2048x64_S4x16x2048x64 = _
  rw [Pipeline.withArrays_arr spec0 launch0.win.arr_inj c _ _ 3]

/-- The program's result is attention of its three arguments. -/
theorem result_eq (c : Dev nD) :
    Pipeline.afterTail₀ cfgs (dats m) 0 (V0 m) [hostOps1] c main_v4
      = attn (m ((c : Thread nD τ).loc main_arg0)) (m ((c : Thread nD τ).loc main_arg1)) (m ((c : Thread nD τ).loc main_arg2)) := by
  rw [tail_main_v4, final3, V_main_v0, V_main_v1, V_main_v2]
  exact split_attn3_merged _ _ _

/-! ## The run -/

/-- Every weakly fair execution of the kernel program terminates with its result at `attn` of the arguments and
    the arguments unchanged. -/
theorem run : θ_run defs (onTc (τ := τ) (main (F := Ideal))) ⟨m, fun _ => 0, ρ⟩ fun r => ∀ c : Dev nD,
      r.2.mem ((c.tc : Thread nD τ).loc main_v4)
        = attn (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Arr

end
-- ==== Proof.lean ====
/-
  Causal linear attention, `out = tril (Q Kᵀ) V` over 4 × 16 heads of 2048 positions and 64 features: a kernel that
  works one head per grid point, in four query blocks of 512 rows against the key blocks not in their future, equals
  the reference that forms all scores, multiplies them by a lower-triangular matrix of ones and contracts with the
  values.

  On the extended reals both compute, for head `(b, h)`, row `t`, feature `d`,
      ∑ s, ((∑ e, q t e * k s e) * [s ≤ t]) * v s d.
  The reference does so literally (`RefIsSpec`). The kernel masks by selection instead of by a factor, leaves out the
  key blocks after the query block, and adds the remaining blocks onto zero one at a time; the two differ by
  `x * 1 = x`, `x * 0 = 0`, `0 * y = 0`, `0 + x = x` and the splitting of a sum over 2048 keys into four sums over
  512 (`SpecBlocks`), laws that hold of every extended real, so the precondition is not used for the values.
  `KernelBlocks` reads the body's four stores at an index, `KernelArray` carries the blocks to the result array and
  through the reshapes around the call (`HeadsLayout`). The three frames are the generated ones; reading the
  kernel on the extended reals rewrites none of its operations, so `preserves` has nothing to state.
-/
import proofs.«176356_j28656021799604_1_alg».proof.Defs
import proofs.«176356_j28656021799604_1_alg».proof.Proof.Gen.Kernel
import proofs.«176356_j28656021799604_1_alg».proof.Proof.Gen.Kernel.Skeleton
import proofs.«176356_j28656021799604_1_alg».proof.Proof.Gen.Kernel.Launch
import proofs.«176356_j28656021799604_1_alg».proof.Proof.Gen.Kernel.Points
import proofs.«176356_j28656021799604_1_alg».proof.Proof.Gen.Kernel.Frame
import proofs.«176356_j28656021799604_1_alg».proof.Proof.Gen.KernelIdeal
import proofs.«176356_j28656021799604_1_alg».proof.Proof.Gen.KernelIdeal.Skeleton
import proofs.«176356_j28656021799604_1_alg».proof.Proof.Gen.KernelIdeal.Launch
import proofs.«176356_j28656021799604_1_alg».proof.Proof.Gen.KernelIdeal.Points
import proofs.«176356_j28656021799604_1_alg».proof.Proof.Gen.KernelIdeal.Frame
import proofs.«176356_j28656021799604_1_alg».proof.Proof.Gen.ReferenceIdeal
import proofs.«176356_j28656021799604_1_alg».proof.Proof.Gen.ReferenceIdeal.Run
import proofs.«176356_j28656021799604_1_alg».proof.Proof.Gen.ReferenceIdeal.Read
import proofs.«176356_j28656021799604_1_alg».proof.Proof.Gen.Pre_finite_inputs
import proofs.«176356_j28656021799604_1_alg».proof.Proof.RefIsSpec
import proofs.«176356_j28656021799604_1_alg».proof.Proof.KernelArray
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, with its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten when the kernel was read on the extended reals. -/
theorem preserves : Cert.preserves_Kernel_KernelIdeal := trivial

/-- From memories that agree on the three arguments both programs end at `attn` of them. -/
theorem algebraic : Cert.algebraic_KernelIdeal_ReferenceIdeal := by
  intro m ρ m' ρ' _ hagree
  refine ⟨_, Cert.KernelIdeal.Arr.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v6_eq, Cert.ReferenceIdeal.RefValue.val_main_v6_eq_attn,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
